-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S2000x512 : Shape := ⟨2, ![2000, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S2000x512 : S_.BroadcastsInDim S2000x512 (![] : Fin 0 → Fin S2000x512.rank)
  reducesTo_S2000x512_S_d0_1 : S2000x512.ReducesTo [0, 1] S_

variable [Facts]

def fn {F : FTy → Type} [FloatOps F] (main_arg0 : FVec F S65536x512 .f32) (main_arg1 : FVec F S2000x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  main_v8
-- ==== Kernel.lean ====
abbrev S65536x512 : Shape := ⟨2, ![65536, 512]⟩
abbrev S2000x512 : Shape := ⟨2, ![2000, 512]⟩
abbrev S65536x2000 : Shape := ⟨2, ![65536, 2000]⟩
abbrev S256x512 : Shape := ⟨2, ![256, 512]⟩
abbrev S256x2000 : Shape := ⟨2, ![256, 2000]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S65536x512, .f32⟩
  | .hbm, ⟨1, _⟩ => ⟨S2000x512, .f32⟩
  | .hbm, ⟨2, _⟩ => ⟨S2000x512, .bf16⟩
  | .hbm, ⟨3, _⟩ => ⟨S2000x512, .f32⟩
  | .hbm, ⟨4, _⟩ => ⟨S2000x512, .f32⟩
  | .hbm, ⟨5, _⟩ => ⟨S2000x512, .bf16⟩
  | .hbm, ⟨6, _⟩ => ⟨S65536x512, .f32⟩
  | .hbm, ⟨7, _⟩ => ⟨S65536x2000, .f32⟩
  | .local _ .vmem, ⟨0, _⟩ => ⟨S256x512, .f32⟩
  | .local _ .vmem, ⟨1, _⟩ => ⟨S256x512, .f32⟩
  | .local _ .vmem, ⟨2, _⟩ => ⟨S2000x512, .bf16⟩
  | .local _ .vmem, ⟨3, _⟩ => ⟨S2000x512, .bf16⟩
  | .local _ .vmem, ⟨4, _⟩ => ⟨S256x512, .f32⟩
  | .local _ .vmem, ⟨5, _⟩ => ⟨S256x512, .f32⟩
  | .local _ .vmem, ⟨6, _⟩ => ⟨S256x2000, .f32⟩
  | .local _ .vmem, ⟨7, _⟩ => ⟨S256x2000, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2000x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  reduces_S256x2000_S256 : S256x2000.Reduces [1] S256
  shapeCasts_S256_S256x1 : S256.ShapeCasts S256x1
  broadcasts_S256x1_S256x2000 : S256x1.Broadcasts S256x2000
  inb_S256x2000_S256x2000_0_0 : ∀ a, (![0, 0] : Fin 2 → Nat) a + S256x2000.size a ≤ S256x2000.size a
  h_S256x2000 : 0 < S256x2000.numel
  dot_S256x512_S2000x512_S256x2000_1_1_0_0_n_n_wf : DotDims.WF S256x512 S2000x512 S256x2000 [1] [1] [0] [0] [] []
  dot_S256x2000_S2000x512_S256x512_1_0_0_1_n_n_wf : DotDims.WF S256x2000 S2000x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S65536x512.size a
  hwx0_0 : ∀ i : grid0.Coords, EltTy.bits .f32 = 32 ∨ (Rect.block (s := S65536x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .bf16 = 32 ∨ (Rect.block (s := S2000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S2000x512.size a
  hwx0_2 : ∀ i : grid0.Coords, EltTy.bits .bf16 = 32 ∨ (Rect.block (s := S2000x512) S2000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S65536x512.size a
  hwx0_3 : ∀ i : grid0.Coords, EltTy.bits .f32 = 32 ∨ (Rect.block (s := S65536x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2000.size a ≤ S65536x2000.size a
  hwx0_4 : ∀ i : grid0.Coords, EltTy.bits .f32 = 32 ∨ (Rect.block (s := S65536x2000) S256x2000.size (cc0_transform_4 i) (hinb0_4 i)).WholeWords (EltTy.packing .f32)

variable [Facts₀]

def dot_S256x512_S2000x512_S256x2000_1_1_0_0_n_n : DotDims S256x512 S2000x512 S256x2000 where
  lhsContracting := [1]
  rhsContracting := [1]
  lhsNonContracting := [0]
  rhsNonContracting := [0]
  lhsBatch := []
  rhsBatch := []
  wf := dot_S256x512_S2000x512_S256x2000_1_1_0_0_n_n_wf
def dot_S256x2000_S2000x512_S256x512_1_0_0_1_n_n : DotDims S256x2000 S2000x512 S256x512 where
  lhsContracting := [1]
  rhsContracting := [0]
  lhsNonContracting := [0]
  rhsNonContracting := [1]
  lhsBatch := []
  rhsBatch := []
  wf := dot_S256x2000_S2000x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2000x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S256x2000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S2000x512 : Shape := ⟨2, ![2000, 512]⟩
abbrev S65536x2000 : Shape := ⟨2, ![65536, 2000]⟩
abbrev S_ : Shape := ⟨0, ![]⟩
abbrev S65536 : Shape := ⟨1, ![65536]⟩
abbrev S65536x1 : Shape := ⟨2, ![65536, 1]⟩

abbrev nBuf : Space → Nat
  | .hbm => 42
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S2000x512, .f32⟩
  | .hbm, ⟨2, _⟩ => ⟨S65536x2000, .f32⟩
  | .hbm, ⟨3, _⟩ => ⟨S_, .f32⟩
  | .hbm, ⟨4, _⟩ => ⟨S65536, .f32⟩
  | .hbm, ⟨5, _⟩ => ⟨S_, .f32⟩
  | .hbm, ⟨6, _⟩ => ⟨S65536, .f32⟩
  | .hbm, ⟨7, _⟩ => ⟨S65536, .f32⟩
  | .hbm, ⟨8, _⟩ => ⟨S65536x1, .f32⟩
  | .hbm, ⟨9, _⟩ => ⟨S65536x2000, .f32⟩
  | .hbm, ⟨10, _⟩ => ⟨S65536x2000, .f32⟩
  | .hbm, ⟨11, _⟩ => ⟨S65536x2000, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S65536x2000, .f32⟩
  | .hbm, ⟨16, _⟩ => ⟨S65536x2000, .f32⟩
  | .hbm, ⟨17, _⟩ => ⟨S_, .f32⟩
  | .hbm, ⟨18, _⟩ => ⟨S65536x2000, .f32⟩
  | .hbm, ⟨19, _⟩ => ⟨S65536x2000, .f32⟩
  | .hbm, ⟨20, _⟩ => ⟨S_, .f32⟩
  | .hbm, ⟨21, _⟩ => ⟨S65536x2000, .f32⟩
  | .hbm, ⟨22, _⟩ => ⟨S65536x2000, .f32⟩
  | .hbm, ⟨23, _⟩ => ⟨S65536x2000, .f32⟩
  | .hbm, ⟨24, _⟩ => ⟨S_, .f32⟩
  | .hbm, ⟨25, _⟩ => ⟨S65536x2000, .f32⟩
  | .hbm, ⟨26, _⟩ => ⟨S65536x2000, .f32⟩
  | .hbm, ⟨27, _⟩ => ⟨S65536x2000, .f32⟩
  | .hbm, ⟨28, _⟩ => ⟨S_, .f32⟩
  | .hbm, ⟨29, _⟩ => ⟨S65536x2000, .f32⟩
  | .hbm, ⟨30, _⟩ => ⟨S65536x2000, .f32⟩
  | .hbm, ⟨31, _⟩ => ⟨S65536x2000, .f32⟩
  | .hbm, ⟨32, _⟩ => ⟨S65536x2000, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x2000, .f32⟩
  | .hbm, ⟨40, _⟩ => ⟨S65536x2000, .f32⟩
  | .hbm, ⟨41, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  reducesTo_S65536x2000_S65536_d1 : S65536x2000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x2000_0_1 : S65536x1.BroadcastsInDim S65536x2000 (![0, 1] : Fin 2 → Fin S65536x2000.rank)
  bcast_S_S65536x2000 : S_.BroadcastsInDim S65536x2000 (![] : Fin 0 → Fin S65536x2000.rank)
  bcast_S_S65536x1 : S_.BroadcastsInDim S65536x1 (![] : Fin 0 → Fin S65536x1.rank)
  dot_S65536x512_S2000x512_S65536x2000_1_1_0_0_n_n_wf : DotDims.WF S65536x512 S2000x512 S65536x2000 [1] [1] [0] [0] [] []
  dot_S65536x2000_S2000x512_S65536x512_1_0_0_1_n_n_wf : DotDims.WF S65536x2000 S2000x512 S65536x512 [1] [0] [0] [1] [] []

variable [Facts₀]

def dot_S65536x512_S2000x512_S65536x2000_1_1_0_0_n_n : DotDims S65536x512 S2000x512 S65536x2000 where
  lhsContracting := [1]
  rhsContracting := [1]
  lhsNonContracting := [0]
  rhsNonContracting := [0]
  lhsBatch := []
  rhsBatch := []
  wf := dot_S65536x512_S2000x512_S65536x2000_1_1_0_0_n_n_wf
def dot_S65536x2000_S2000x512_S65536x512_1_0_0_1_n_n : DotDims S65536x2000 S2000x512 S65536x512 where
  lhsContracting := [1]
  rhsContracting := [0]
  lhsNonContracting := [0]
  rhsNonContracting := [1]
  lhsBatch := []
  rhsBatch := []
  wf := dot_S65536x2000_S2000x512_S65536x512_1_0_0_1_n_n_wf

class Facts : Prop extends Facts₀ where

variable [Facts]
-- ==== Proof.KernelBlocks.lean ====
/-
  Where the kernel's blocks sit in the arrays.

  The grid has 256 points. At point `t` the query window holds rows `256 t … 256 t + 255` of the queries, all 512
  features; the two memory windows hold the whole memory at every point; and the two result windows are written back
  to rows `256 t … 256 t + 255` of their arrays, all columns. So local row `r` of point `t` is global row `256 t + r`,
  every global row lies in exactly one point's block, and the result blocks cover their arrays.

  Before the region the host leaves two arrays for the memory windows: the memory itself, its format changed (which on
  the extended reals changes nothing), and the residue: the memory minus itself, format changes aside.
-/
import proofs.«414790_j3693671874649_3_alg».proof.Proof.Gen.KernelIdeal.Value
import Idealize.ShloMosaic.Lib.ValueIdx
import Idealize.ShloMosaic.Lib.StableHlo.Run
import Idealize.ShloMosaic.Lib.Pipeline.Value

set_option maxRecDepth 16384

noncomputable section

namespace Cert.KernelBlocks

open Idealize.ShloMosaic Idealize.ShloMosaic.TcCoe Idealize.ShloMosaic.ValueIdx Idealize.SL.Sem
open Cert.KernelIdeal Cert.KernelIdeal.Gen Cert.KernelIdeal.Value

variable (m : (ℓ : Loc nD τ sig) → Buf (Elt Ideal) ℓ)

/-- Local row `r` of grid point `t` is global row `256 t + r`. -/
def grow (t : Fin cfg0.N) (r : Fin 256) : Fin 65536 :=
  ⟨t.val * 256 + r.val, by have h : t.val < 256 := lt_of_lt_of_eq t.isLt N_0; have := r.isLt; omega⟩

/-- The queries as launched on core `c`, as extended reals. -/
abbrev xarr (c : Dev nD) : S65536x512.Idx → EReal := m ((c : Thread nD τ).loc main_arg0)
/-- The memory as launched on core `c`, as extended reals. -/
abbrev warr (c : Dev nD) : S2000x512.Idx → EReal := m ((c : Thread nD τ).loc main_arg1)

/-! ## The arrays the host leaves for the memory windows -/

/-- The first memory window's array is the memory. -/
theorem whi_apply (c : Dev nD) (i : S2000x512.Idx) :
    (V m c main_v0 i : EReal) = warr m c i := by
  have e : (V m c main_v0 : S2000x512.Idx → EReal) = warr m c := by
    dsimp only [Gen.V, Gen.hostOps0]; after_results; rfl
  exact congrFun e i

/-- The second memory window's array is the residue: each entry of the memory minus itself. -/
theorem wlo_apply (c : Dev nD) (i : S2000x512.Idx) :
    (V m c main_v3 i : EReal) = warr m c i - warr m c i := by
  have e : (V m c main_v3 : S2000x512.Idx → EReal) = fun i => warr m c i - warr m c i := by
    dsimp only [Gen.V, Gen.hostOps0]; after_results; rfl
  exact congrFun e i

/-! ## The block indices at a point, decided over the grid -/

/-- The query window's block index at point t is (t, 0). -/
private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The first memory window's block index is (0, 0) at every point. -/
private theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The second memory window's block index is (0, 0) at every point. -/
private theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The read-out window's block index at point t is (t, 0). -/
private theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
/-- The weights window's block index at point t is (t, 0). -/
private theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-! ## The input blocks read at an index -/

/-- The query block at point `t`, local row `r`: global row `256 t + r` of the queries. -/
theorem xblk_apply (c : Dev nD) (t : Fin cfg0.N) (r : Fin 256) (f : Fin 512) :
    (iblk m c 0 t (ix2 r f) : EReal) = xarr m c (ix2 (grow t r) f) := by
  unfold iblk
  show V m c main_arg0 (((cfg0.win 0).blk t).view.emb (ix2 r f)) = xarr m c (ix2 (grow t r) f)
  rw [V_main_arg0]
  show xarr m c (((cfg0.win 0).blk t).view.emb (ix2 r f)) = xarr m c (ix2 (grow t r) f)
  congr 1
  obtain ⟨e0, e1⟩ := idx0 t
  funext a; apply Fin.ext
  match a with
  | ⟨0, _⟩ => show win0_0.index t (0 : Fin 2) * 256 + 1 * r.val = t.val * 256 + r.val; omega
  | ⟨1, _⟩ => show win0_0.index t (1 : Fin 2) * 512 + 1 * f.val = f.val; omega

/-- The first memory block is the whole of its array at every point. -/
theorem whiblk_apply (c : Dev nD) (t : Fin cfg0.N) (k : Fin 2000) (f : Fin 512) :
    (iblk m c 1 t (ix2 k f) : EReal) = V m c main_v0 (ix2 k f) := by
  unfold iblk
  show V m c main_v0 (((cfg0.win 1).blk t).view.emb (ix2 k f)) = V m c main_v0 (ix2 k f)
  congr 1
  obtain ⟨e0, e1⟩ := idx1 t
  funext a; apply Fin.ext
  match a with
  | ⟨0, _⟩ => show win0_1.index t (0 : Fin 2) * 2000 + 1 * k.val = k.val; omega
  | ⟨1, _⟩ => show win0_1.index t (1 : Fin 2) * 512 + 1 * f.val = f.val; omega

/-- The second memory block is the whole of its array at every point. -/
theorem wloblk_apply (c : Dev nD) (t : Fin cfg0.N) (k : Fin 2000) (f : Fin 512) :
    (iblk m c 2 t (ix2 k f) : EReal) = V m c main_v3 (ix2 k f) := by
  unfold iblk
  show V m c main_v3 (((cfg0.win 2).blk t).view.emb (ix2 k f)) = V m c main_v3 (ix2 k f)
  congr 1
  obtain ⟨e0, e1⟩ := idx2 t
  funext a; apply Fin.ext
  match a with
  | ⟨0, _⟩ => show win0_2.index t (0 : Fin 2) * 2000 + 1 * k.val = k.val; omega
  | ⟨1, _⟩ => show win0_2.index t (1 : Fin 2) * 512 + 1 * f.val = f.val; omega

/-! ## The result blocks in their arrays -/

/-- The read-out block at point `t`: local `(r, f)` is global `(256 t + r, f)`. -/
theorem emb3 (t : Fin cfg0.N) (r : Fin 256) (f : Fin 512) :
    ((cfg0.win 3).blk t).view.emb (ix2 r f) = ix2 (grow t r) f := by
  obtain ⟨e0, e1⟩ := idx3 t
  funext a; apply Fin.ext
  match a with
  | ⟨0, _⟩ => show win0_3.index t (0 : Fin 2) * 256 + 1 * r.val = t.val * 256 + r.val; omega
  | ⟨1, _⟩ => show win0_3.index t (1 : Fin 2) * 512 + 1 * f.val = f.val; omega

/-- The weights block at point `t`: local `(r, j)` is global `(256 t + r, j)`. -/
theorem emb4 (t : Fin cfg0.N) (r : Fin 256) (j : Fin 2000) :
    ((cfg0.win 4).blk t).view.emb (ix2 r j) = ix2 (grow t r) j := by
  obtain ⟨e0, e1⟩ := idx4 t
  funext a; apply Fin.ext
  match a with
  | ⟨0, _⟩ => show win0_4.index t (0 : Fin 2) * 256 + 1 * r.val = t.val * 256 + r.val; omega
  | ⟨1, _⟩ => show win0_4.index t (1 : Fin 2) * 2000 + 1 * j.val = j.val; omega

/-- An index of the read-out array is in point t's block iff each coordinate is in the block's range on its axis. -/
private theorem mem_blk3 (t : Fin cfg0.N) (i : S65536x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v4_0).slice (win0_3.rect t)).set ↔ _
  rw [View.set_slice_whole, Rect.mem_set_unit]
  exact Iff.rfl

/-- An index of the weights array is in point t's block iff each coordinate is in the block's range on its axis. -/
private theorem mem_blk4 (t : Fin cfg0.N) (i : S65536x2000.Idx) :
    i ∈ ((cfg0.win 4).blk t).view.set ↔ ∀ a : Fin 2, win0_4.index t a * S256x2000.size a ≤ (i a).val ∧ (i a).val < win0_4.index t a * S256x2000.size a + S256x2000.size a := by
  show i ∈ ((View.whole main_v4_1).slice (win0_4.rect t)).set ↔ _
  rw [View.set_slice_whole, Rect.mem_set_unit]
  exact Iff.rfl

/-- Every index of the read-out array is in some point's block. -/
theorem cover3 (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht⟩ : ∃ t : Fin cfg0.N, t.val = (i 0).val / 256 :=
    ⟨⟨(i 0).val / 256, lt_of_lt_of_eq (by omega : (i 0).val / 256 < 256) N_0.symm⟩, rfl⟩
  refine ⟨t, flush0_3 t, ?_⟩
  rw [mem_blk3]
  obtain ⟨e0, e1⟩ := idx3 t
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- Every index of the weights array is in some point's block. -/
theorem cover4 (i : S65536x2000.Idx) :
    ∃ t : Fin cfg0.N, (cfg0.win 4).flush t = true ∧ i ∈ ((cfg0.win 4).blk t).view.set := by
  have hi0 : (i 0).val < 65536 := (i 0).isLt
  have hi1 : (i 1).val < 2000 := (i 1).isLt
  obtain ⟨t, ht⟩ : ∃ t : Fin cfg0.N, t.val = (i 0).val / 256 :=
    ⟨⟨(i 0).val / 256, lt_of_lt_of_eq (by omega : (i 0).val / 256 < 256) N_0.symm⟩, rfl⟩
  refine ⟨t, flush0_4 t, ?_⟩
  rw [mem_blk4]
  obtain ⟨e0, e1⟩ := idx4 t
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2000 ≤ (i 1).val ∧ (i 1).val < win0_4.index t (1 : Fin 2) * 2000 + 2000; omega

end Cert.KernelBlocks

end
-- ==== Proof.LibSoftmaxRow.lean ====
/-
  Laws of the extended reals behind one row of attention weights.

  A row of scores `s` becomes weights in two forms. One form takes the row maximum `M` from a start value `b`,
  exponentiates `s k - M`, sums the row to `l`, and multiplies each exponential by the reciprocal `1 / l`. The
  other form takes the maximum of `b` and `M` again, adds the row sum to a zero, and divides each exponential by
  that. On the extended reals a division by zero is not a product with an inverse, so the two forms agree once
  `l` is not zero: when every score of the row is a real number and `b` is not plus infinity, `M` is not plus
  infinity, every `s k - M` is above minus infinity, every exponential is positive, and so is their sum.

  The score itself meets the same pair of forms: a nonnegative real factor on one operand of every product of a
  contraction comes out of the sum, on all extended reals, because a product with a nonnegative real
  distributes over any sum.
-/
import Idealize.ShloMosaic.PureOps.Ideal
import Mathlib.Data.Finset.Fold

noncomputable section

namespace Cert.RowLaws

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor on the left operand of each product comes out of a finite sum of products. -/
theorem sum_scaled_mul {ι : Type} (s : Finset ι) (a b : ι → EReal) (c : ℝ) (hc : 0 ≤ c) :
    ∑ i ∈ s, (a i * (c : EReal)) * b i = (∑ i ∈ s, a i * b i) * (c : EReal) := by
  classical
  induction s using Finset.induction_on with
  | empty => simp
  | insert x s hx ih =>
    rw [Finset.sum_insert hx, Finset.sum_insert hx, ih,
      EReal.right_distrib_of_nonneg_of_ne_top (EReal.coe_nonneg.mpr hc) (EReal.coe_ne_top c), mul_right_comm]

/-- The exponential of an extended real is never negative. -/
theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

/-- Above minus infinity it is positive. -/
theorem exp_pos {x : EReal} (h : x ≠ ⊥) : 0 < Ideal.exp x := by
  induction x using EReal.rec with
  | bot => exact absurd rfl h
  | coe r => rw [Ideal.exp_coe]; exact EReal.coe_pos.mpr (Real.exp_pos r)
  | top => rw [Ideal.exp_top]; exact EReal.zero_lt_top

variable {n : ℕ}

/-- The maximum of a row, folded from a start value. -/
def rowMax (b : EReal) (s : Fin n → EReal) : EReal := (Finset.univ : Finset (Fin n)).fold max b s

theorem start_le_rowMax (b : EReal) (s : Fin n → EReal) : b ≤ rowMax b s :=
  (Finset.le_fold_max b).mpr (Or.inl le_rfl)

/-- A row of values below plus infinity, from a start below plus infinity, has its maximum below plus infinity. -/
theorem rowMax_ne_top (b : EReal) (s : Fin n → EReal) (hb : b ≠ ⊤) (hs : ∀ k, s k ≠ ⊤) : rowMax b s ≠ ⊤ := by
  have h : rowMax b s < ⊤ :=
    (Finset.fold_max_lt ⊤).mpr ⟨lt_top_iff_ne_top.mpr hb, fun k _ => lt_top_iff_ne_top.mpr (hs k)⟩
  exact h.ne

/-- THE ROW LAW: for a row of real scores the weight as exponential times the reciprocal of the row sum is the
    weight as exponential over the row sum, the second form with its maximum taken once more against the start
    value and its sum started from zero. -/
theorem weights_eq (b one zero : EReal) (hb : b ≠ ⊤) (h1 : one = 1) (h0 : zero = 0)
    (s : Fin n → EReal) (hs : ∀ k, s k ≠ ⊥ ∧ s k ≠ ⊤) (k : Fin n) :
    Ideal.exp (s k - rowMax b s) * Ideal.div one (∑ k', Ideal.exp (s k' - rowMax b s))
      = Ideal.div (Ideal.exp (s k - max b (rowMax b s))) (zero + ∑ k', Ideal.exp (s k' - max b (rowMax b s))) := by
  subst h1 h0
  rw [max_eq_right (start_le_rowMax b s), zero_add]
  have hM := rowMax_ne_top b s hb (fun k => (hs k).2)
  have hne : ∀ k', s k' - rowMax b s ≠ ⊥ := fun k' h => by
    rw [sub_eq_add_neg] at h
    rcases EReal.add_eq_bot_iff.mp h with h | h
    · exact (hs k').1 h
    · exact hM (EReal.neg_eq_bot_iff.mp h)
  have hl : (∑ k', Ideal.exp (s k' - rowMax b s)) ≠ 0 := by
    have hpos : 0 < ∑ k', Ideal.exp (s k' - rowMax b s) :=
      lt_of_lt_of_le (exp_pos (hne k))
        (Finset.single_le_sum (f := fun k' => Ideal.exp (s k' - rowMax b s)) (fun i _ => exp_nonneg _) (Finset.mem_univ k))
    exact hpos.ne'
  unfold Ideal.div
  rw [if_neg hl, if_neg hl, one_mul]

end Cert.RowLaws

end
-- ==== Proof.Rows.lean ====
/-
  One row of the memory unit, written twice.

  A row of scores `s` (one query against the 2000 memory slots) becomes a row of addressing weights:
  a softmax, then the hard shrink `max(a - λ, 0) · a / (|a - λ| + ε)`, then a division by the row's
  L1 norm, floored at `ε`. The two programs spell this differently in three places:

  * the scores: one program contracts the query with the memory once; the other contracts it three times,
    with the memory, with the memory's rounding residue `w - w`, and the query's residue `x - x` with the
    memory, and adds the three. On real numbers both residues are zero.
  * the softmax: one multiplies each exponential by the reciprocal `1 / l` of the row sum; the other takes
    the maximum once more against minus infinity, starts the sum from a zero, and divides by it.
  * the L1 norm: one sums the shrunk weights as they are; the other sums their absolute values from a zero.
    A shrunk weight is never negative, so its absolute value is itself.

  `attK` / `scoreK` are the first spelling, `attR` / `dot` the second; that they are the same extended reals on real
  scores, and on real queries and memories, is proved where these definitions are used.
-/
import Idealize.ShloMosaic.PureOps.Ideal
import Idealize.ShloMosaic.PureOps.Ideal.Laws
import proofs.«414790_j3693671874649_3_alg».proof.Proof.LibSoftmaxRow

noncomputable section

namespace Cert.Rows

open Idealize.ShloMosaic

/-- The shrink threshold λ: the f32 nearest 0.0025. -/
abbrev thr : EReal := Ideal.ofBits .f32 0x3B23D70A#32
/-- The floor ε: the f32 nearest 1e-12. -/
abbrev eps : EReal := Ideal.ofBits .f32 0x2B8CBCCC#32
/-- Minus infinity, the start of a row maximum. -/
abbrev ninf : EReal := Ideal.ofBits .f32 0xFF800000#32
/-- Zero, the start of a row sum. -/
abbrev zero : EReal := Ideal.ofBits .f32 0x00000000#32
/-- One, the numerator of the reciprocal. -/
abbrev one : EReal := Ideal.ofBits .f32 0x3F800000#32

variable {n d : ℕ}

/-- The contraction of two rows. -/
def dot (a b : Fin d → EReal) : EReal := ∑ f, a f * b f

/-- A score as three contractions: with the memory row, with its residue, and the query's residue with the memory row. -/
def scoreK (xr whi wlo : Fin d → EReal) : EReal :=
  dot xr whi + dot xr wlo + dot (fun f => xr f - xr f) whi

/-- Softmax, reciprocal form. -/
def softK (s : Fin n → EReal) (k : Fin n) : EReal :=
  Ideal.exp (s k - RowLaws.rowMax ninf s) * Ideal.div one (∑ k', Ideal.exp (s k' - RowLaws.rowMax ninf s))

/-- Softmax, quotient form: the maximum taken once more against the start value, the sum started from zero. -/
def softR (s : Fin n → EReal) (k : Fin n) : EReal :=
  Ideal.div (Ideal.exp (s k - max ninf (RowLaws.rowMax ninf s)))
    (zero + ∑ k', Ideal.exp (s k' - max ninf (RowLaws.rowMax ninf s)))

/-- The hard shrink of one weight: `max(a - λ, 0) · a / (|a - λ| + ε)`. -/
def shrink (a : EReal) : EReal :=
  Ideal.div (max (a - thr) zero * a) (max (a - thr) (-(a - thr)) + eps)

/-- The shrunk row over its sum floored at ε. -/
def normK (a : Fin n → EReal) (k : Fin n) : EReal :=
  Ideal.div (shrink (a k)) (max (∑ k', shrink (a k')) eps)

/-- The shrunk row over the sum of its absolute values, started from zero, floored at ε. -/
def normR (a : Fin n → EReal) (k : Fin n) : EReal :=
  Ideal.div (shrink (a k)) (max (zero + ∑ k', max (shrink (a k')) (-(shrink (a k')))) eps)

/-- A row of addressing weights, first spelling. -/
def attK (s : Fin n → EReal) (k : Fin n) : EReal := normK (softK s) k
/-- A row of addressing weights, second spelling. -/
def attR (s : Fin n → EReal) (k : Fin n) : EReal := normR (softR s) k

end Cert.Rows

end
-- ==== Proof.KernelRow.lean ====
/-
  What the kernel's body computes, read at one index.

  The body is cut into four stages, each a function of whole blocks: the scores (three contractions added), the softmax
  in reciprocal form, the hard shrink (pointwise), and the division by the floored row sum. Row `r` of each stage
  depends on row `r` of the stage before only, and within the row it is the first spelling of the row of addressing
  weights. The second payload contracts a row of the weights with a column of the memory.

  The only steps that are not pointwise are the keepdims columns (a row reduction `[256]`, viewed `[256, 1]`, spread
  over `[256, 2000]`: entry `(r, j)` is the reduction's entry `r`), the row reductions themselves, and the contractions.
-/
import proofs.«414790_j3693671874649_3_alg».proof.Proof.Gen.KernelIdeal.Skeleton
import proofs.«414790_j3693671874649_3_alg».proof.Proof.Rows
import Idealize.ShloMosaic.Lib.ValueIdx
import Idealize.ShloMosaic.Lib.Pipeline.Value
import Idealize.ShloMosaic.PureOps.Ideal.Laws

noncomputable section

namespace Cert.KernelRow

open Idealize.ShloMosaic Idealize.ShloMosaic.ValueIdx
open Cert.KernelIdeal Cert.KernelIdeal.Gen Cert.Rows

/-! ## Keepdims columns -/

/-- A row vector viewed as a column: entry `(r, 0)` is entry `r`. -/
theorem col_apply {α : Type} (v : S256.Idx → α) (r : Fin 256) (z : Fin 1) :
    shapeCast S256x1 v shapeCasts_S256_S256x1 (ix2 r z) = v (ix1 r) :=
  shapeCast_apply v shapeCasts_S256_S256x1 (ix2 r z) (ix1 r) (by
    rw [Shape.rowMajor_val_one, Shape.rowMajor_val_two]
    show r.val = r.val * 1 + z.val
    have := z.isLt; omega)

/-- A column spread over the row: entry `(r, j)` is the column's entry `(r, 0)`. -/
theorem spread_apply {α : Type} (v : S256x1.Idx → α) (r : Fin 256) (j : Fin 2000) :
    broadcastTo S256x2000 v broadcasts_S256x1_S256x2000 (ix2 r j) = v (ix2 r (0 : Fin 1)) :=
  broadcastTo_apply v broadcasts_S256x1_S256x2000 (ix2 r j) (ix2 r (0 : Fin 1)) (fun a => match a with
    | ⟨0, _⟩ => by show r.val = if (256 : Nat) = 1 then 0 else r.val; rw [if_neg (by decide)]
    | ⟨1, _⟩ => by show 0 = if (1 : Nat) = 1 then 0 else j.val; rw [if_pos rfl])

/-- The index a row reduction inserts: column `k` into row `r`. -/
theorem lift_row (r : Fin 256) (k : Fin 2000) : reduces_S256x2000_S256.lift (ix1 r) k = ix2 r k := by
  funext a; apply Fin.ext
  match a with
  | ⟨0, _⟩ => rfl
  | ⟨1, _⟩ => rfl

/-! ## Row reductions -/

/-- A row maximum from minus infinity. -/
theorem rowmax_apply (v : FVec Ideal S256x2000 .f32) (r : Fin 256) :
    multiReduction .maximumf [1] S256 v 0xFF800000#32 reduces_S256x2000_S256 (.inl rfl) rfl (ix1 r)
      = RowLaws.rowMax ninf (fun k => v (ix2 r k)) := by
  refine (Ideal.multiReduction_maximumf_single v 0xFF800000#32 reduces_S256x2000_S256 (.inl rfl) rfl (ix1 r)).trans ?_
  have e : (v ∘ reduces_S256x2000_S256.lift (ix1 r)) = fun k : Fin 2000 => v (ix2 r k) :=
    funext fun k => congrArg v (lift_row r k)
  unfold RowLaws.rowMax
  exact congrArg (fun g => (Finset.univ : Finset (Fin 2000)).fold max ninf g) e

/-- A row sum. -/
theorem rowsum_apply (v : FVec Ideal S256x2000 .f32) (r : Fin 256) :
    multiReduction .add [1] S256 v 0x00000000#32 reduces_S256x2000_S256 (.inl rfl) rfl (ix1 r)
      = ∑ k : Fin 2000, v (ix2 r k) := by
  refine (Ideal.multiReduction_add_single v 0x00000000#32 reduces_S256x2000_S256 (.inl rfl) rfl (ix1 r)).trans ?_
  exact Finset.sum_congr rfl fun k _ => congrArg v (lift_row r k)

/-! ## The two contractions -/

theorem lhsA_0 (i : S256x2000.Idx) (q : dot_S256x512_S2000x512_S256x2000_1_1_0_0_n_n.contr.Idx) :
    (dot_S256x512_S2000x512_S256x2000_1_1_0_0_n_n.lhsIdx i q 0).val = (i 0).val := by
  unfold DotDims.lhsIdx
  rw [dif_neg (show ¬(0 : Fin S256x512.rank) ∈ dot_S256x512_S2000x512_S256x2000_1_1_0_0_n_n.lhsBatch by decide), dif_pos (show (0 : Fin S256x512.rank) ∈ dot_S256x512_S2000x512_S256x2000_1_1_0_0_n_n.lhsNonContracting by decide)]
  rfl
theorem lhsA_1 (i : S256x2000.Idx) (q : dot_S256x512_S2000x512_S256x2000_1_1_0_0_n_n.contr.Idx) :
    (dot_S256x512_S2000x512_S256x2000_1_1_0_0_n_n.lhsIdx i q 1).val = (q ⟨0, by decide⟩).val :=
  dot_S256x512_S2000x512_S256x2000_1_1_0_0_n_n.lhsIdx_val_of_single rfl i q
theorem rhsA_0 (i : S256x2000.Idx) (q : dot_S256x512_S2000x512_S256x2000_1_1_0_0_n_n.contr.Idx) :
    (dot_S256x512_S2000x512_S256x2000_1_1_0_0_n_n.rhsIdx i q 0).val = (i 1).val := by
  unfold DotDims.rhsIdx
  rw [dif_neg (show ¬(0 : Fin S2000x512.rank) ∈ dot_S256x512_S2000x512_S256x2000_1_1_0_0_n_n.rhsBatch by decide), dif_pos (show (0 : Fin S2000x512.rank) ∈ dot_S256x512_S2000x512_S256x2000_1_1_0_0_n_n.rhsNonContracting by decide)]
  rfl
theorem rhsA_1 (i : S256x2000.Idx) (q : dot_S256x512_S2000x512_S256x2000_1_1_0_0_n_n.contr.Idx) :
    (dot_S256x512_S2000x512_S256x2000_1_1_0_0_n_n.rhsIdx i q 1).val = (q ⟨0, by decide⟩).val :=
  dot_S256x512_S2000x512_S256x2000_1_1_0_0_n_n.rhsIdx_val_of_single rfl i q

/-- A query block against a memory block, into zero: entry `(r, k)` contracts row `r` with row `k` over the features. -/
theorem scoreMat_apply (a : FVec Ideal S256x512 .bf16) (b : FVec Ideal S2000x512 .bf16) (r : Fin 256) (k : Fin 2000) :
    matmul dot_S256x512_S2000x512_S256x2000_1_1_0_0_n_n none a b (constant S256x2000 .f32 0x00000000#32) (ix2 r k)
      = dot (fun f : Fin 512 => a (ix2 r f)) (fun f : Fin 512 => b (ix2 k f)) := by
  simp only [matmul]
  rw [Ideal.matmul_constant_zero_apply, ← Equiv.sum_comp (contrEquiv1 dot_S256x512_S2000x512_S256x2000_1_1_0_0_n_n 512 rfl rfl).symm]
  unfold dot
  refine Finset.sum_congr rfl fun f _ => ?_
  have hk := contrEquiv1_symm_val dot_S256x512_S2000x512_S256x2000_1_1_0_0_n_n 512 rfl rfl f
  have el : dot_S256x512_S2000x512_S256x2000_1_1_0_0_n_n.lhsIdx (ix2 r k) ((contrEquiv1 dot_S256x512_S2000x512_S256x2000_1_1_0_0_n_n 512 rfl rfl).symm f) = ix2 r f := funext fun a => Fin.ext (by
    match a with
    | ⟨0, _⟩ => exact lhsA_0 _ _
    | ⟨1, _⟩ => exact (lhsA_1 _ _).trans hk)
  have er : dot_S256x512_S2000x512_S256x2000_1_1_0_0_n_n.rhsIdx (ix2 r k) ((contrEquiv1 dot_S256x512_S2000x512_S256x2000_1_1_0_0_n_n 512 rfl rfl).symm f) = ix2 k f := funext fun a => Fin.ext (by
    match a with
    | ⟨0, _⟩ => exact rhsA_0 _ _
    | ⟨1, _⟩ => exact (rhsA_1 _ _).trans hk)
  rw [el, er]

theorem lhsB_0 (i : S256x512.Idx) (q : dot_S256x2000_S2000x512_S256x512_1_0_0_1_n_n.contr.Idx) :
    (dot_S256x2000_S2000x512_S256x512_1_0_0_1_n_n.lhsIdx i q 0).val = (i 0).val := by
  unfold DotDims.lhsIdx
  rw [dif_neg (show ¬(0 : Fin S256x2000.rank) ∈ dot_S256x2000_S2000x512_S256x512_1_0_0_1_n_n.lhsBatch by decide), dif_pos (show (0 : Fin S256x2000.rank) ∈ dot_S256x2000_S2000x512_S256x512_1_0_0_1_n_n.lhsNonContracting by decide)]
  rfl
theorem lhsB_1 (i : S256x512.Idx) (q : dot_S256x2000_S2000x512_S256x512_1_0_0_1_n_n.contr.Idx) :
    (dot_S256x2000_S2000x512_S256x512_1_0_0_1_n_n.lhsIdx i q 1).val = (q ⟨0, by decide⟩).val :=
  dot_S256x2000_S2000x512_S256x512_1_0_0_1_n_n.lhsIdx_val_of_single rfl i q
theorem rhsB_0 (i : S256x512.Idx) (q : dot_S256x2000_S2000x512_S256x512_1_0_0_1_n_n.contr.Idx) :
    (dot_S256x2000_S2000x512_S256x512_1_0_0_1_n_n.rhsIdx i q 0).val = (q ⟨0, by decide⟩).val :=
  dot_S256x2000_S2000x512_S256x512_1_0_0_1_n_n.rhsIdx_val_of_single rfl i q
theorem rhsB_1 (i : S256x512.Idx) (q : dot_S256x2000_S2000x512_S256x512_1_0_0_1_n_n.contr.Idx) :
    (dot_S256x2000_S2000x512_S256x512_1_0_0_1_n_n.rhsIdx i q 1).val = (i 1).val := by
  unfold DotDims.rhsIdx
  rw [dif_neg (show ¬(1 : Fin S2000x512.rank) ∈ dot_S256x2000_S2000x512_S256x512_1_0_0_1_n_n.rhsBatch by decide), dif_pos (show (1 : Fin S2000x512.rank) ∈ dot_S256x2000_S2000x512_S256x512_1_0_0_1_n_n.rhsNonContracting by decide)]
  rfl

/-- A weights block against a memory block, into zero: entry `(r, f)` contracts row `r` with column `f` over the slots. -/
theorem readMat_apply (a : FVec Ideal S256x2000 .bf16) (b : FVec Ideal S2000x512 .bf16) (r : Fin 256) (f : Fin 512) :
    matmul dot_S256x2000_S2000x512_S256x512_1_0_0_1_n_n none a b (constant S256x512 .f32 0x00000000#32) (ix2 r f)
      = dot (fun k : Fin 2000 => a (ix2 r k)) (fun k : Fin 2000 => b (ix2 k f)) := by
  simp only [matmul]
  rw [Ideal.matmul_constant_zero_apply, ← Equiv.sum_comp (contrEquiv1 dot_S256x2000_S2000x512_S256x512_1_0_0_1_n_n 2000 rfl rfl).symm]
  unfold dot
  refine Finset.sum_congr rfl fun k _ => ?_
  have hk := contrEquiv1_symm_val dot_S256x2000_S2000x512_S256x512_1_0_0_1_n_n 2000 rfl rfl k
  have el : dot_S256x2000_S2000x512_S256x512_1_0_0_1_n_n.lhsIdx (ix2 r f) ((contrEquiv1 dot_S256x2000_S2000x512_S256x512_1_0_0_1_n_n 2000 rfl rfl).symm k) = ix2 r k := funext fun a => Fin.ext (by
    match a with
    | ⟨0, _⟩ => exact lhsB_0 _ _
    | ⟨1, _⟩ => exact (lhsB_1 _ _).trans hk)
  have er : dot_S256x2000_S2000x512_S256x512_1_0_0_1_n_n.rhsIdx (ix2 r f) ((contrEquiv1 dot_S256x2000_S2000x512_S256x512_1_0_0_1_n_n 2000 rfl rfl).symm k) = ix2 k f := funext fun a => Fin.ext (by
    match a with
    | ⟨0, _⟩ => exact (rhsB_0 _ _).trans hk
    | ⟨1, _⟩ => exact rhsB_1 _ _)
  rw [el, er]

/-! ## The first payload in four stages -/

/-- The scores of a block: the query block against the first memory block, against the second, and the query block's
    residue against the first, added. -/
def scoresVec (x0 : Vec Ideal S256x512 .f32) (x1 x2 : Vec Ideal S2000x512 .bf16) : FVec Ideal S256x2000 .f32 :=
  addf (addf
      (matmul dot_S256x512_S2000x512_S256x2000_1_1_0_0_n_n none (truncf .bf16 x0 bitsLt_bf16_f32) (k0_pay2 x1) (constant S256x2000 .f32 0x00000000#32))
      (matmul dot_S256x512_S2000x512_S256x2000_1_1_0_0_n_n none (truncf .bf16 x0 bitsLt_bf16_f32) (shapeCast S2000x512 x2 shapeCasts_S2000x512_S2000x512 : FVec Ideal S2000x512 .bf16) (constant S256x2000 .f32 0x00000000#32)))
    (matmul dot_S256x512_S2000x512_S256x2000_1_1_0_0_n_n none (truncf .bf16 (subf x0 x0) bitsLt_bf16_f32) (k0_pay2 x1) (constant S256x2000 .f32 0x00000000#32))

/-- The row maximum spread over the row. -/
def maxCol (v13 : FVec Ideal S256x2000 .f32) : FVec Ideal S256x2000 .f32 :=
  broadcastTo S256x2000 (shapeCast S256x1
    (multiReduction .maximumf [1] S256 v13 0xFF800000#32 reduces_S256x2000_S256 (.inl rfl) rfl) shapeCasts_S256_S256x1) broadcasts_S256x1_S256x2000

/-- The row sum as a column. -/
def sumCol (v : FVec Ideal S256x2000 .f32) : FVec Ideal S256x1 .f32 :=
  shapeCast S256x1 (multiReduction .add [1] S256 v 0x00000000#32 reduces_S256x2000_S256 (.inl rfl) rfl) shapeCasts_S256_S256x1

/-- The exponentials of the scores shifted by their row maximum. -/
def expVec (v13 : FVec Ideal S256x2000 .f32) : FVec Ideal S256x2000 .f32 :=
  exp (subf v13 (maxCol v13))

/-- The softmax, reciprocal form. -/
def softVec (v13 : FVec Ideal S256x2000 .f32) : FVec Ideal S256x2000 .f32 :=
  mulf (expVec v13) (broadcastTo S256x2000
    (divf (broadcast S256x1 (Scalar.ofBits .f32 0x3F800000#32)) (sumCol (expVec v13))) broadcasts_S256x1_S256x2000)

/-- The hard shrink, entry by entry. -/
def shrinkVec (v24 : FVec Ideal S256x2000 .f32) : FVec Ideal S256x2000 .f32 :=
  divf (mulf (maximumf (subf v24 (broadcast S256x2000 (Scalar.ofBits .f32 0x3B23D70A#32))) (broadcast S256x2000 (Scalar.ofBits .f32 0x00000000#32))) v24)
    (addf (absf (subf v24 (broadcast S256x2000 (Scalar.ofBits .f32 0x3B23D70A#32)))) (broadcast S256x2000 (Scalar.ofBits .f32 0x2B8CBCCC#32)))

/-- The division by the floored row sum. -/
def normVec (v33 : FVec Ideal S256x2000 .f32) : FVec Ideal S256x2000 .f32 :=
  divf v33 (broadcastTo S256x2000
    (maximumf (sumCol v33) (broadcast S256x1 (Scalar.ofBits .f32 0x2B8CBCCC#32))) broadcasts_S256x1_S256x2000)

/-- The first payload is the four stages composed. -/
theorem pay3_stages (x0 : Vec Ideal S256x512 .f32) (x1 x2 : Vec Ideal S2000x512 .bf16) :
    k0_pay3 (F := Ideal) x0 x1 x2 = normVec (shrinkVec (softVec (scoresVec x0 x1 x2))) := rfl

/-! ## The stages read at an index -/

theorem maxCol_apply (v13 : FVec Ideal S256x2000 .f32) (r : Fin 256) (k : Fin 2000) :
    maxCol v13 (ix2 r k) = RowLaws.rowMax ninf (fun k' : Fin 2000 => v13 (ix2 r k')) :=
  (spread_apply _ r k).trans ((col_apply _ r 0).trans (rowmax_apply v13 r))

theorem sumCol_apply (v : FVec Ideal S256x2000 .f32) (r : Fin 256) :
    sumCol v (ix2 r (0 : Fin 1)) = ∑ k : Fin 2000, v (ix2 r k) :=
  (col_apply _ r 0).trans (rowsum_apply v r)

theorem expVec_apply (v13 : FVec Ideal S256x2000 .f32) (r : Fin 256) (k : Fin 2000) :
    expVec v13 (ix2 r k) = Ideal.exp (v13 (ix2 r k) - RowLaws.rowMax ninf (fun k' : Fin 2000 => v13 (ix2 r k'))) :=
  congrArg (fun M => Ideal.exp (v13 (ix2 r k) - M)) (maxCol_apply v13 r k)

/-- Row `r` of the softmax stage is the reciprocal-form softmax of row `r` of the scores. -/
theorem softVec_apply (v13 : FVec Ideal S256x2000 .f32) (r : Fin 256) (j : Fin 2000) :
    softVec v13 (ix2 r j) = softK (fun k : Fin 2000 => v13 (ix2 r k)) j := by
  have h2 : broadcastTo S256x2000 (divf (broadcast S256x1 (Scalar.ofBits .f32 0x3F800000#32)) (sumCol (expVec v13))) broadcasts_S256x1_S256x2000 (ix2 r j)
      = Ideal.div one (∑ k : Fin 2000, Ideal.exp (v13 (ix2 r k) - RowLaws.rowMax ninf (fun k' : Fin 2000 => v13 (ix2 r k')))) := by
    refine (spread_apply _ r j).trans ?_
    refine congrArg (Ideal.div one) ((sumCol_apply (expVec v13) r).trans ?_)
    exact Finset.sum_congr rfl fun k _ => expVec_apply v13 r k
  exact congrArg₂ (· * ·) (expVec_apply v13 r j) h2

/-- The shrink stage is the hard shrink of each entry. -/
theorem shrinkVec_apply (v24 : FVec Ideal S256x2000 .f32) (i : S256x2000.Idx) : shrinkVec v24 i = shrink (v24 i) := rfl

/-- Row `r` of the last stage: each entry over the row sum floored at ε. -/
theorem normVec_apply (v33 : FVec Ideal S256x2000 .f32) (r : Fin 256) (j : Fin 2000) :
    normVec v33 (ix2 r j) = Ideal.div (v33 (ix2 r j)) (max (∑ k : Fin 2000, v33 (ix2 r k)) eps) := by
  have h : broadcastTo S256x2000 (maximumf (sumCol v33) (broadcast S256x1 (Scalar.ofBits .f32 0x2B8CBCCC#32))) broadcasts_S256x1_S256x2000 (ix2 r j)
      = max (∑ k : Fin 2000, v33 (ix2 r k)) eps :=
    (spread_apply _ r j).trans (congrArg (fun s => max s eps) (sumCol_apply v33 r))
  exact congrArg (Ideal.div (v33 (ix2 r j))) h

/-- A memory block viewed in its own shape is itself. -/
theorem pay2_eq (x1 : Vec Ideal S2000x512 .bf16) : k0_pay2 (F := Ideal) x1 = x1 :=
  shapeCast_self x1 shapeCasts_S2000x512_S2000x512

/-- Entry `(r, k)` of the scores: the three contractions of query row `r` with memory rows `k`. -/
theorem scoresVec_apply (x0 : Vec Ideal S256x512 .f32) (x1 x2 : Vec Ideal S2000x512 .bf16) (r : Fin 256) (k : Fin 2000) :
    scoresVec x0 x1 x2 (ix2 r k)
      = scoreK (fun f : Fin 512 => x0 (ix2 r f)) (fun f : Fin 512 => x1 (ix2 k f)) (fun f : Fin 512 => x2 (ix2 k f)) := by
  unfold scoresVec scoreK
  rw [pay2_eq, shapeCast_self]
  exact congrArg₂ (· + ·) (congrArg₂ (· + ·) (scoreMat_apply _ _ r k) (scoreMat_apply _ _ r k)) (scoreMat_apply _ _ r k)

/-- THE FIRST PAYLOAD at `(r, j)`: the addressing weight `j` of the row of scores of query row `r`. -/
theorem pay3_apply (x0 : Vec Ideal S256x512 .f32) (x1 x2 : Vec Ideal S2000x512 .bf16) (r : Fin 256) (j : Fin 2000) :
    k0_pay3 (F := Ideal) x0 x1 x2 (ix2 r j)
      = attK (fun k : Fin 2000 => scoreK (fun f : Fin 512 => x0 (ix2 r f)) (fun f : Fin 512 => x1 (ix2 k f)) (fun f : Fin 512 => x2 (ix2 k f))) j := by
  rw [pay3_stages]
  have hS : (fun k : Fin 2000 => scoresVec x0 x1 x2 (ix2 r k))
      = fun k : Fin 2000 => scoreK (fun f : Fin 512 => x0 (ix2 r f)) (fun f : Fin 512 => x1 (ix2 k f)) (fun f : Fin 512 => x2 (ix2 k f)) :=
    funext fun k => scoresVec_apply x0 x1 x2 r k
  have hsoft : ∀ k : Fin 2000, shrinkVec (softVec (scoresVec x0 x1 x2)) (ix2 r k)
      = shrink (softK (fun k : Fin 2000 => scoreK (fun f : Fin 512 => x0 (ix2 r f)) (fun f : Fin 512 => x1 (ix2 k f)) (fun f : Fin 512 => x2 (ix2 k f))) k) := fun k =>
    (shrinkVec_apply _ _).trans (congrArg shrink ((softVec_apply _ r k).trans (congrArg (fun s => softK s k) hS)))
  refine (normVec_apply _ r j).trans ?_
  unfold attK normK
  exact congrArg₂ Ideal.div (hsoft j) (congrArg (fun s => max s eps) (Finset.sum_congr rfl fun k _ => hsoft k))

/-- THE SECOND PAYLOAD at `(r, f)`: row `r` of the weights contracted with column `f` of the memory block. -/
theorem pay1_apply (v2 : FVec Ideal S2000x512 .bf16) (v39 : FVec Ideal S256x2000 .f32) (r : Fin 256) (f : Fin 512) :
    k0_pay1 (F := Ideal) v2 v39 (ix2 r f) = dot (fun k : Fin 2000 => v39 (ix2 r k)) (fun k : Fin 2000 => v2 (ix2 k f)) := by
  unfold k0_pay1
  exact readMat_apply _ v2 r f

end Cert.KernelRow

end
-- ==== Proof.Spec.lean ====
/-
  The two results of the memory unit as functions of its two inputs, index by index, in both spellings.

  `x` is the batch of queries, one per row, 65536 rows of 512 features; `w` is the memory, 2000 slots of 512
  features. Row `n` of the scores contracts query `n` with every slot over the features; the row of scores becomes a
  row of addressing weights (softmax, hard shrink, L1 normalisation: the module imported below); and the read-out
  at `(n, f)` contracts the weights of row `n` with feature `f` of every slot over the slots.

  The second spelling (`R`) contracts with `w` itself. The first (`K`) is given the memory twice over, as `whi` and as a
  residue `wlo`, and uses `whi` for the read-out.
-/
import Idealize.ShloMosaic.Lib.ValueIdx
import proofs.«414790_j3693671874649_3_alg».proof.Proof.Rows

noncomputable section

namespace Cert.Spec

open Idealize.ShloMosaic Idealize.ShloMosaic.ValueIdx Cert.Rows

/-- The shape of the queries and of the read-out. -/
abbrev SX : Shape := ⟨2, ![65536, 512]⟩
/-- The shape of the memory. -/
abbrev SW : Shape := ⟨2, ![2000, 512]⟩
/-- The shape of the addressing weights. -/
abbrev SA : Shape := ⟨2, ![65536, 2000]⟩

/-- Query `n`. -/
def xrow (x : SX.Idx → EReal) (n : Fin 65536) : Fin 512 → EReal := fun f => x (ix2 n f)
/-- Memory slot `k`. -/
def wrow (w : SW.Idx → EReal) (k : Fin 2000) : Fin 512 → EReal := fun f => w (ix2 k f)
/-- Feature `f` of every slot. -/
def wcol (w : SW.Idx → EReal) (f : Fin 512) : Fin 2000 → EReal := fun k => w (ix2 k f)

/-- Row `n` of the scores: one contraction per slot. -/
def scoresR (x : SX.Idx → EReal) (w : SW.Idx → EReal) (n : Fin 65536) : Fin 2000 → EReal :=
  fun k => dot (xrow x n) (wrow w k)

/-- The addressing weights, second spelling. -/
def attArrR (x : SX.Idx → EReal) (w : SW.Idx → EReal) : SA.Idx → EReal :=
  fun i => attR (scoresR x w (i 0)) (i 1)

/-- The read-out, second spelling. -/
def outArrR (x : SX.Idx → EReal) (w : SW.Idx → EReal) : SX.Idx → EReal :=
  fun i => dot (fun k => attArrR x w (ix2 (i 0) k)) (wcol w (i 1))

/-- Row `n` of the scores as three contractions per slot. -/
def scoresK (x : SX.Idx → EReal) (whi wlo : SW.Idx → EReal) (n : Fin 65536) : Fin 2000 → EReal :=
  fun k => scoreK (xrow x n) (wrow whi k) (wrow wlo k)

/-- The addressing weights, first spelling. -/
def attArrK (x : SX.Idx → EReal) (whi wlo : SW.Idx → EReal) : SA.Idx → EReal :=
  fun i => attK (scoresK x whi wlo (i 0)) (i 1)

/-- The read-out, first spelling. -/
def outArrK (x : SX.Idx → EReal) (whi wlo : SW.Idx → EReal) : SX.Idx → EReal :=
  fun i => dot (fun k => attArrK x whi wlo (ix2 (i 0) k)) (wcol whi (i 1))

end Cert.Spec

end
-- ==== Proof.KernelValue.lean ====
/-
  The kernel's two result arrays as functions of its two inputs.

  At grid point `t` the body writes back, to rows `256 t … 256 t + 255` of each result array, what it computed from the
  query block of those rows and the whole memory (given twice: itself and its residue). Local row `r` of the weights
  block is the row of addressing weights of query `256 t + r`, first spelling; local `(r, f)` of the read-out block
  contracts that row with feature `f` of the memory. These are the blocks of two whole-array functions, the blocks cover
  both arrays, so after the run each array holds its function of the inputs.
-/
import proofs.«414790_j3693671874649_3_alg».proof.Proof.Gen.KernelIdeal.Value
import proofs.«414790_j3693671874649_3_alg».proof.Proof.KernelBlocks
import proofs.«414790_j3693671874649_3_alg».proof.Proof.KernelRow
import proofs.«414790_j3693671874649_3_alg».proof.Proof.Spec
import Idealize.ShloMosaic.Lib.Pipeline.Value

set_option maxRecDepth 16384

noncomputable section

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.KernelBlocks Cert.KernelRow Cert.Rows Cert.Spec

variable (m : (ℓ : Loc nD τ sig) → Buf (Elt Ideal) ℓ) (ρ : Dev nD → PrngReg)

/-- The addressing weights the kernel leaves on core `c`: first spelling, of the queries, the memory and its residue. -/
abbrev attOf (c : Dev nD) : S65536x2000.Idx → EReal :=
  attArrK (xarr m c) (warr m c) (fun i => warr m c i - warr m c i)

/-- The read-out the kernel leaves on core `c`. -/
abbrev outOf (c : Dev nD) : S65536x512.Idx → EReal :=
  outArrK (xarr m c) (warr m c) (fun i => warr m c i - warr m c i)

theorem hz : (![0, 0] : Fin 2 → Nat) = fun _ => 0 := funext fun a => by fin_cases a <;> rfl

/-- Row `r` of the scores at point `t`, read off the three input blocks, is row `256 t + r` of the scores of the
    arrays: the query block holds those rows, and both memory blocks are their whole arrays. -/
theorem scores_at (c : Dev nD) (t : Fin cfg0.N) (r : Fin 256) :
    (fun k : Fin 2000 => scoreK (fun f : Fin 512 => (iblk m c 0 t (ix2 r f) : EReal)) (fun f : Fin 512 => (iblk m c 1 t (ix2 k f) : EReal))
        (fun f : Fin 512 => (iblk m c 2 t (ix2 k f) : EReal)))
      = scoresK (xarr m c) (warr m c) (fun i => warr m c i - warr m c i) (grow t r) := by
  funext k
  unfold scoresK xrow wrow
  have e0 : (fun f : Fin 512 => (iblk m c 0 t (ix2 r f) : EReal)) = fun f : Fin 512 => xarr m c (ix2 (grow t r) f) :=
    funext fun f => xblk_apply m c t r f
  have e1 : (fun f : Fin 512 => (iblk m c 1 t (ix2 k f) : EReal)) = fun f : Fin 512 => warr m c (ix2 k f) :=
    funext fun f => (whiblk_apply m c t k f).trans (whi_apply m c (ix2 k f))
  have e2 : (fun f : Fin 512 => (iblk m c 2 t (ix2 k f) : EReal)) = fun f : Fin 512 => warr m c (ix2 k f) - warr m c (ix2 k f) :=
    funext fun f => (wloblk_apply m c t k f).trans (wlo_apply m c (ix2 k f))
  rw [e0, e1, e2]

/-- The first payload of the three input blocks at point `t`, local `(r, j)`, is the weights at `(256 t + r, j)`. -/
theorem weights_at (c : Dev nD) (t : Fin cfg0.N) (r : Fin 256) (j : Fin 2000) :
    k0_pay3 (F := Ideal) (iblk m c 0 t) (iblk m c 1 t) (iblk m c 2 t) (ix2 r j) = attOf m c (ix2 (grow t r) j) :=
  (pay3_apply (iblk m c 0 t) (iblk m c 1 t) (iblk m c 2 t) r j).trans
    (congrArg (fun s => attK s j) (scores_at m c t r))

/-- What point `t` writes back to the weights array is block `t` of the weights. -/
theorem flushed4_eq (c : Dev nD) (t : Fin cfg0.N) :
    (dats m 0 c).flushed 4 t = ((cfg0.win 4).blk t).view.read (Elt Ideal) (attOf m c) := by
  rw [flushed4]
  unfold out0_4
  rw [View.canon_unit_zero hz]
  simp only [View.ld_unit_zero (S := S256x512) hz, View.ld_unit_zero (S := S2000x512) hz]
  funext y
  obtain ⟨r, j, rfl⟩ : ∃ (r : Fin 256) (j : Fin 2000), y = ix2 r j := ⟨y 0, y 1, eq_ix2 y⟩
  show k0_pay3 (F := Ideal) (iblk m c 0 t) (iblk m c 1 t) (iblk m c 2 t) (ix2 r j) = attOf m c (((cfg0.win 4).blk t).view.emb (ix2 r j))
  rw [emb4]
  exact weights_at m c t r j

/-- What point `t` writes back to the read-out array is block `t` of the read-out. -/
theorem flushed3_eq (c : Dev nD) (t : Fin cfg0.N) :
    (dats m 0 c).flushed 3 t = ((cfg0.win 3).blk t).view.read (Elt Ideal) (outOf m c) := by
  rw [flushed3]
  unfold out0_3
  rw [View.canon_unit_zero hz]
  simp only [View.ld_unit_zero (S := S256x512) hz, View.ld_unit_zero (S := S2000x512) hz]
  funext y
  obtain ⟨r, f, rfl⟩ : ∃ (r : Fin 256) (f : Fin 512), y = ix2 r f := ⟨y 0, y 1, eq_ix2 y⟩
  show k0_pay1 (F := Ideal) (k0_pay2 (iblk m c 1 t)) (k0_pay3 (iblk m c 0 t) (iblk m c 1 t) (iblk m c 2 t)) (ix2 r f)
    = outOf m c (((cfg0.win 3).blk t).view.emb (ix2 r f))
  rw [emb3]
  refine (pay1_apply _ _ r f).trans ?_
  show dot _ _ = dot (fun k : Fin 2000 => attOf m c (ix2 (grow t r) k)) (wcol (warr m c) f)
  have ea : (fun k : Fin 2000 => k0_pay3 (F := Ideal) (iblk m c 0 t) (iblk m c 1 t) (iblk m c 2 t) (ix2 r k))
      = fun k : Fin 2000 => attOf m c (ix2 (grow t r) k) := funext fun k => weights_at m c t r k
  have eb : (fun k : Fin 2000 => (k0_pay2 (F := Ideal) (iblk m c 1 t) (ix2 k f) : EReal)) = wcol (warr m c) f := funext fun k => by
    rw [pay2_eq]
    exact (whiblk_apply m c t k f).trans (whi_apply m c (ix2 k f))
  rw [ea, eb]

/-- After the run the weights array holds the weights. -/
theorem final4 (c : Dev nD) : (dats m 0 c).arrAt 4 cfg0.N = attOf m c :=
  (dats m 0 c).arrAt_eq_of_cover 4 (attOf m c) (fun t _ => flushed4_eq m c t) cover4

/-- After the run the read-out array holds the read-out. -/
theorem final3 (c : Dev nD) : (dats m 0 c).arrAt 3 cfg0.N = outOf m c :=
  (dats m 0 c).arrAt_eq_of_cover 3 (outOf m c) (fun t _ => flushed3_eq m c t) cover3

/-- The kernel's run with both result arrays at their functions of the inputs, the inputs unchanged. -/
theorem run : θ_run defs (onTc (τ := τ) (main (F := Ideal))) ⟨m, fun _ => 0, ρ⟩ fun r => ∀ c : Dev nD,
      r.2.mem ((c : Thread nD τ).loc main_v4_0) = outOf m c
      ∧ r.2.mem ((c : Thread nD τ).loc main_v4_1) = attOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c), (h c).2.2.1, (h c).2.2.2⟩)
    (run_blocks m ρ)

end Cert.KernelSide

end
-- ==== Proof.RefSide.lean ====
/-
  The reference program's two results are the second spelling of the specification.

  Stage by stage: the first contraction is the row of scores; the row maximum, taken from minus infinity and then once
  more against minus infinity, is subtracted, the exponentials are summed from zero and divided by that sum (the
  softmax, quotient form); each weight is shrunk, the absolute values of the shrunk row are summed from zero, floored,
  and divide the shrunk row; and the last contraction, over the slots, is the read-out.
-/
import proofs.«414790_j3693671874649_3_alg».proof.Proof.Gen.ReferenceIdeal.Read
import proofs.«414790_j3693671874649_3_alg».proof.Proof.Spec
import Idealize.ShloMosaic.PureOps.Reduce
import Idealize.ShloMosaic.PureOps.Ideal.Laws
import Idealize.ShloMosaic.Lib.ValueIdx

noncomputable section

namespace Cert.RefSide

open Idealize.ShloMosaic Idealize.ShloMosaic.ValueIdx Cert.ReferenceIdeal Cert.ReferenceIdeal.Read Cert.Rows Cert.Spec

/-- The first contraction at `(n, k)` is the score of query `n` against slot `k`. -/
private theorem v0_at (x0 : (⟨S65536x512, .f32⟩ : BufTy).Contents (Elt Ideal)) (x1 : (⟨S2000x512, .f32⟩ : BufTy).Contents (Elt Ideal)) (n : Fin 65536) (k : Fin 2000) :
    val_main_v0 (F := Ideal) x0 x1 (ix2 n k) = scoresR x0 x1 n k := by
  rw [val_main_v0_apply]
  unfold scoresR dot xrow wrow
  refine Finset.sum_congr rfl fun f _ => ?_
  have el : lidx_main_v0 (ix2 n k) f = ix2 n f :=
    funext fun a => Fin.ext (by match a with | ⟨0, _⟩ => rfl | ⟨1, _⟩ => rfl)
  have er : ridx_main_v0 (ix2 n k) f = ix2 k f :=
    funext fun a => Fin.ext (by match a with | ⟨0, _⟩ => rfl | ⟨1, _⟩ => rfl)
  rw [el, er]

/-- The row maximum, folded from minus infinity. -/
private theorem v1_at (x0 : (⟨S65536x512, .f32⟩ : BufTy).Contents (Elt Ideal)) (x1 : (⟨S2000x512, .f32⟩ : BufTy).Contents (Elt Ideal)) (n : Fin 65536) :
    val_main_v1 (F := Ideal) x0 x1 (ix1 n) = RowLaws.rowMax ninf (scoresR x0 x1 n) := by
  have h : S65536x2000.Reduces [1] S65536 := by decide
  unfold val_main_v1
  rw [Host.reduce_eq_fold_single _ _ _ Gen.reducesTo_S65536x2000_S65536_d1 h]
  have hf : val_main_v0 (F := Ideal) x0 x1 ∘ h.lift (ix1 n) = scoresR x0 x1 n := funext fun k => by
    have e : h.lift (ix1 n) k = ix2 n k :=
      funext fun a => Fin.ext (by match a with | ⟨0, _⟩ => rfl | ⟨1, _⟩ => rfl)
    show val_main_v0 (F := Ideal) x0 x1 (h.lift (ix1 n) k) = _
    rw [e]; exact v0_at x0 x1 n k
  rw [hf]
  rfl

/-- The maximum taken once more against minus infinity. -/
private theorem v3_at (x0 : (⟨S65536x512, .f32⟩ : BufTy).Contents (Elt Ideal)) (x1 : (⟨S2000x512, .f32⟩ : BufTy).Contents (Elt Ideal)) (n : Fin 65536) :
    val_main_v3 (F := Ideal) x0 x1 (ix1 n) = max ninf (RowLaws.rowMax ninf (scoresR x0 x1 n)) := by
  rw [val_main_v3_apply, val_main_v2_apply, val_main_cst_0_apply, v1_at]
  rfl

/-- The same, spread along the row. -/
private theorem v5_at (x0 : (⟨S65536x512, .f32⟩ : BufTy).Contents (Elt Ideal)) (x1 : (⟨S2000x512, .f32⟩ : BufTy).Contents (Elt Ideal)) (n : Fin 65536) (k : Fin 2000) :
    val_main_v5 (F := Ideal) x0 x1 (ix2 n k) = max ninf (RowLaws.rowMax ninf (scoresR x0 x1 n)) := by
  rw [val_main_v5_apply, val_main_v4_apply]
  have e : idx_main_v4 (idx_main_v5 (ix2 n k)) = ix1 n :=
    funext fun a => Fin.ext (by match a with | ⟨0, _⟩ => rfl)
  rw [e]; exact v3_at x0 x1 n

/-- The exponential of the shifted score. -/
private theorem v7_at (x0 : (⟨S65536x512, .f32⟩ : BufTy).Contents (Elt Ideal)) (x1 : (⟨S2000x512, .f32⟩ : BufTy).Contents (Elt Ideal)) (n : Fin 65536) (k : Fin 2000) :
    val_main_v7 (F := Ideal) x0 x1 (ix2 n k)
      = Ideal.exp (scoresR x0 x1 n k - max ninf (RowLaws.rowMax ninf (scoresR x0 x1 n))) := by
  rw [val_main_v7_apply, val_main_v6_apply, v0_at, v5_at]
  rfl

/-- The row sum of the exponentials, started from zero. -/
private theorem v8_at (x0 : (⟨S65536x512, .f32⟩ : BufTy).Contents (Elt Ideal)) (x1 : (⟨S2000x512, .f32⟩ : BufTy).Contents (Elt Ideal)) (n : Fin 65536) :
    val_main_v8 (F := Ideal) x0 x1 (ix1 n)
      = zero + ∑ k' : Fin 2000, Ideal.exp (scoresR x0 x1 n k' - max ninf (RowLaws.rowMax ninf (scoresR x0 x1 n))) := by
  rw [val_main_v8_apply]
  refine congrArg₂ (· + ·) rfl (Finset.sum_congr rfl fun k' _ => ?_)
  have e : idx_main_v8 (ix1 n) k' = ix2 n k' :=
    funext fun a => Fin.ext (by match a with | ⟨0, _⟩ => rfl | ⟨1, _⟩ => rfl)
  rw [e]; exact v7_at x0 x1 n k'

/-- The same, spread along the row. -/
private theorem v10_at (x0 : (⟨S65536x512, .f32⟩ : BufTy).Contents (Elt Ideal)) (x1 : (⟨S2000x512, .f32⟩ : BufTy).Contents (Elt Ideal)) (n : Fin 65536) (k : Fin 2000) :
    val_main_v10 (F := Ideal) x0 x1 (ix2 n k)
      = zero + ∑ k' : Fin 2000, Ideal.exp (scoresR x0 x1 n k' - max ninf (RowLaws.rowMax ninf (scoresR x0 x1 n))) := by
  rw [val_main_v10_apply, val_main_v9_apply]
  have e : idx_main_v9 (idx_main_v10 (ix2 n k)) = ix1 n :=
    funext fun a => Fin.ext (by match a with | ⟨0, _⟩ => rfl)
  rw [e]; exact v8_at x0 x1 n

/-- The softmax weight, quotient form. -/
private theorem v11_at (x0 : (⟨S65536x512, .f32⟩ : BufTy).Contents (Elt Ideal)) (x1 : (⟨S2000x512, .f32⟩ : BufTy).Contents (Elt Ideal)) (n : Fin 65536) (k : Fin 2000) :
    val_main_v11 (F := Ideal) x0 x1 (ix2 n k) = softR (scoresR x0 x1 n) k := by
  rw [val_main_v11_apply, v7_at, v10_at]
  rfl

/-- The shrunk weight. -/
private theorem v21_at (x0 : (⟨S65536x512, .f32⟩ : BufTy).Contents (Elt Ideal)) (x1 : (⟨S2000x512, .f32⟩ : BufTy).Contents (Elt Ideal)) (n : Fin 65536) (k : Fin 2000) :
    val_main_v21 (F := Ideal) x0 x1 (ix2 n k) = shrink (softR (scoresR x0 x1 n) k) := by
  rw [val_main_v21_apply, val_main_v15_apply, val_main_v14_apply, val_main_v13_apply, val_main_v12_apply,
    val_main_cst_2_apply, val_main_call0_v0_apply, val_main_call0_cst_apply, val_main_v20_apply, val_main_v18_apply,
    val_main_v17_apply, val_main_v16_apply, val_main_cst_3_apply, val_main_v19_apply, val_main_cst_4_apply, v11_at]
  rfl

/-- The row sum of the absolute values of the shrunk weights, started from zero. -/
private theorem v23_at (x0 : (⟨S65536x512, .f32⟩ : BufTy).Contents (Elt Ideal)) (x1 : (⟨S2000x512, .f32⟩ : BufTy).Contents (Elt Ideal)) (n : Fin 65536) :
    val_main_v23 (F := Ideal) x0 x1 (ix1 n)
      = zero + ∑ k' : Fin 2000, max (shrink (softR (scoresR x0 x1 n) k')) (-(shrink (softR (scoresR x0 x1 n) k'))) := by
  rw [val_main_v23_apply]
  refine congrArg₂ (· + ·) rfl (Finset.sum_congr rfl fun k' _ => ?_)
  have e : idx_main_v23 (ix1 n) k' = ix2 n k' :=
    funext fun a => Fin.ext (by match a with | ⟨0, _⟩ => rfl | ⟨1, _⟩ => rfl)
  rw [e, val_main_v22_apply, v21_at]
  rfl

/-- The same, floored at ε and spread along the row. -/
private theorem v27_at (x0 : (⟨S65536x512, .f32⟩ : BufTy).Contents (Elt Ideal)) (x1 : (⟨S2000x512, .f32⟩ : BufTy).Contents (Elt Ideal)) (n : Fin 65536) (k : Fin 2000) :
    val_main_v27 (F := Ideal) x0 x1 (ix2 n k)
      = max (zero + ∑ k' : Fin 2000, max (shrink (softR (scoresR x0 x1 n) k')) (-(shrink (softR (scoresR x0 x1 n) k')))) eps := by
  rw [val_main_v27_apply, val_main_v26_apply, val_main_v24_apply, val_main_v25_apply, val_main_cst_6_apply]
  have e : idx_main_v24 (idx_main_v27 (ix2 n k)) = ix1 n :=
    funext fun a => Fin.ext (by match a with | ⟨0, _⟩ => rfl)
  rw [e, v23_at]
  rfl

/-- The addressing weight at `(n, k)`. -/
private theorem v28_at (x0 : (⟨S65536x512, .f32⟩ : BufTy).Contents (Elt Ideal)) (x1 : (⟨S2000x512, .f32⟩ : BufTy).Contents (Elt Ideal)) (n : Fin 65536) (k : Fin 2000) :
    val_main_v28 (F := Ideal) x0 x1 (ix2 n k) = attR (scoresR x0 x1 n) k := by
  rw [val_main_v28_apply, v21_at, v27_at]
  rfl

/-- The reference's addressing weights are the specification's. -/
theorem ref_att (x0 : (⟨S65536x512, .f32⟩ : BufTy).Contents (Elt Ideal)) (x1 : (⟨S2000x512, .f32⟩ : BufTy).Contents (Elt Ideal)) :
    val_main_v28 (F := Ideal) x0 x1 = attArrR x0 x1 := by
  funext i
  obtain ⟨n, k, rfl⟩ : ∃ (n : Fin 65536) (k : Fin 2000), i = ix2 n k := ⟨i 0, i 1, eq_ix2 i⟩
  exact v28_at x0 x1 n k

/-- The reference's read-out is the specification's. -/
theorem ref_out (x0 : (⟨S65536x512, .f32⟩ : BufTy).Contents (Elt Ideal)) (x1 : (⟨S2000x512, .f32⟩ : BufTy).Contents (Elt Ideal)) :
    val_main_v29 (F := Ideal) x0 x1 = outArrR x0 x1 := by
  funext i
  obtain ⟨n, f, rfl⟩ : ∃ (n : Fin 65536) (f : Fin 512), i = ix2 n f := ⟨i 0, i 1, eq_ix2 i⟩
  rw [val_main_v29_apply]
  unfold outArrR dot wcol
  refine Finset.sum_congr rfl fun k _ => ?_
  have el : lidx_main_v29 (ix2 n f) k = ix2 n k :=
    funext fun a => Fin.ext (by match a with | ⟨0, _⟩ => rfl | ⟨1, _⟩ => rfl)
  have er : ridx_main_v29 (ix2 n f) k = ix2 k f :=
    funext fun a => Fin.ext (by match a with | ⟨0, _⟩ => rfl | ⟨1, _⟩ => rfl)
  rw [el, er, ref_att]

end Cert.RefSide

end
-- ==== Proof.RowsLaws.lean ====
/-
  The laws between the two spellings of a row of addressing weights (the definitions of both spellings are
  in the module imported first below).

  All three rest on the inputs being real numbers: a real minus itself is zero, where `⊤ - ⊤` is not; a row
  of real scores has a real maximum, so every shifted score is above minus infinity, every exponential is
  positive, and the row sum is a positive real whose reciprocal multiplies as the quotient divides; and a
  shrunk weight `max(a - λ, 0) · a / (|a - λ| + ε)` of a nonnegative weight is a quotient of a nonnegative
  by a positive, hence nonnegative, and equal to its absolute value.
-/
import proofs.«414790_j3693671874649_3_alg».proof.Proof.Rows

noncomputable section

namespace Cert.Rows

open Idealize.ShloMosaic

variable {n d : ℕ}

/-- The pattern of `+0.0` denotes zero. -/
private theorem zero_eq : zero = 0 := Ideal.ofBits_zero_f32

/-- The pattern of `1.0` denotes one. -/
private theorem one_eq : one = 1 := by
  simp [Ideal.ofBits, Ideal.ieee, -EReal.coe_mul]; norm_num

/-- The pattern of minus infinity denotes the bottom of the extended reals. -/
private theorem ninf_eq : ninf = ⊥ := by
  simp [Ideal.ofBits, Ideal.ieee]

private theorem ninf_ne_top : ninf ≠ ⊤ := by
  rw [ninf_eq]; exact bot_ne_top

/-- The floor ε is a positive normal number. -/
private theorem eps_pos : 0 < eps := by
  simp [Ideal.ofBits, Ideal.ieee, -EReal.coe_mul]

/-- A real number minus itself is zero. -/
private theorem sub_self_real {x : EReal} (h : x ≠ ⊥ ∧ x ≠ ⊤) : x - x = 0 :=
  EReal.sub_self h.2 h.1

/-- The absolute value `max t (-t)` of an extended real is never negative. -/
private theorem abs_nonneg' (t : EReal) : 0 ≤ max t (-t) := by
  rcases le_total 0 t with h | h
  · exact le_trans h (le_max_left _ _)
  · refine le_trans ?_ (le_max_right _ _)
    rw [EReal.le_neg, neg_zero]; exact h

/-- A nonnegative over a positive is nonnegative. -/
private theorem div_nonneg' {x y : EReal} (hx : 0 ≤ x) (hy : 0 < y) : 0 ≤ Ideal.div x y := by
  unfold Ideal.div
  rw [if_neg hy.ne']
  exact EReal.mul_nonneg hx (EReal.inv_nonneg_of_nonneg hy.le)

/-- The shrunk weight of a nonnegative weight is nonnegative. -/
private theorem shrink_nonneg {a : EReal} (ha : 0 ≤ a) : 0 ≤ shrink a := by
  unfold shrink
  refine div_nonneg' (EReal.mul_nonneg ?_ ha) ?_
  · rw [zero_eq]; exact le_max_right _ _
  · rw [add_comm]; exact EReal.add_pos_of_pos_of_nonneg eps_pos (abs_nonneg' _)

/-- A quotient-form softmax weight of a row of real scores is nonnegative. -/
private theorem softR_nonneg (s : Fin n → EReal) (hs : ∀ k, s k ≠ ⊥ ∧ s k ≠ ⊤) (k : Fin n) : 0 ≤ softR s k := by
  unfold softR
  have hM : max ninf (RowLaws.rowMax ninf s) ≠ ⊤ := by
    rw [max_eq_right (RowLaws.start_le_rowMax ninf s)]
    exact RowLaws.rowMax_ne_top ninf s ninf_ne_top (fun k => (hs k).2)
  have hne : s k - max ninf (RowLaws.rowMax ninf s) ≠ ⊥ := fun h => by
    rw [sub_eq_add_neg] at h
    rcases EReal.add_eq_bot_iff.mp h with h | h
    · exact (hs k).1 h
    · exact hM (EReal.neg_eq_bot_iff.mp h)
  refine div_nonneg' (RowLaws.exp_nonneg _) ?_
  rw [zero_eq, zero_add]
  exact lt_of_lt_of_le (RowLaws.exp_pos hne)
    (Finset.single_le_sum (f := fun k' => Ideal.exp (s k' - max ninf (RowLaws.rowMax ninf s)))
      (fun i _ => RowLaws.exp_nonneg _) (Finset.mem_univ k))

/-- A contraction of real rows is a real number. -/
theorem dot_real (a b : Fin d → EReal) (ha : ∀ f, a f ≠ ⊥ ∧ a f ≠ ⊤) (hb : ∀ f, b f ≠ ⊥ ∧ b f ≠ ⊤) :
    dot a b ≠ ⊥ ∧ dot a b ≠ ⊤ := by
  have h : ∀ f, a f * b f = (((a f).toReal * (b f).toReal : ℝ) : EReal) := fun f => by
    rw [EReal.coe_mul, EReal.coe_toReal (ha f).2 (ha f).1, EReal.coe_toReal (hb f).2 (hb f).1]
  unfold dot
  rw [Finset.sum_congr rfl (fun f _ => h f), ← RowLaws.coe_sum]
  exact ⟨EReal.coe_ne_bot _, EReal.coe_ne_top _⟩

/-- On a real query row and a real memory row the three contractions add up to the one: both residues are zero. -/
theorem scoreK_eq_dot (xr w : Fin d → EReal) (hx : ∀ f, xr f ≠ ⊥ ∧ xr f ≠ ⊤) (hw : ∀ f, w f ≠ ⊥ ∧ w f ≠ ⊤) :
    scoreK xr w (fun f => w f - w f) = dot xr w := by
  have h1 : dot xr (fun f => w f - w f) = 0 := by
    unfold dot
    exact Finset.sum_eq_zero fun f _ => by
      show xr f * (w f - w f) = 0
      rw [sub_self_real (hw f), mul_zero]
  have h2 : dot (fun f => xr f - xr f) w = 0 := by
    unfold dot
    exact Finset.sum_eq_zero fun f _ => by
      show (xr f - xr f) * w f = 0
      rw [sub_self_real (hx f), zero_mul]
  unfold scoreK
  rw [h1, h2, add_zero, add_zero]

/-- On a row of real scores the two spellings of the addressing weights agree. -/
theorem attK_eq_attR (s : Fin n → EReal) (hs : ∀ k, s k ≠ ⊥ ∧ s k ≠ ⊤) (k : Fin n) : attK s k = attR s k := by
  have hsoft : softK s = softR s :=
    funext fun k => RowLaws.weights_eq ninf one zero ninf_ne_top one_eq zero_eq s hs k
  have habs : ∀ k', max (shrink (softR s k')) (-(shrink (softR s k'))) = shrink (softR s k') := fun k' =>
    max_eq_left (le_trans (by rw [EReal.neg_le, neg_zero]; exact shrink_nonneg (softR_nonneg s hs k'))
      (shrink_nonneg (softR_nonneg s hs k')))
  unfold attK attR normK normR
  rw [hsoft, Finset.sum_congr rfl (fun k' _ => habs k'), zero_eq, zero_add]

end Cert.Rows

end
-- ==== Proof.Bridge.lean ====
/-
  On real queries and a real memory the two spellings of the specification are the same arrays.

  Given the memory as `whi` and its residue `w - w` as `wlo`, every row of the three-contraction scores is the row of
  single contractions; a row of such scores is a row of real numbers, so the two spellings of its addressing weights
  agree; and the read-outs contract the same weights with the same memory.
-/
import proofs.«414790_j3693671874649_3_alg».proof.Proof.Spec
import proofs.«414790_j3693671874649_3_alg».proof.Proof.RowsLaws

noncomputable section

namespace Cert.Spec

open Idealize.ShloMosaic Idealize.ShloMosaic.ValueIdx Cert.Rows

/-- On real queries and a real memory every row of the three-contraction scores is the row of single contractions. -/
private theorem scoresK_eq_scoresR (x : SX.Idx → EReal) (w : SW.Idx → EReal)
    (hx : ∀ i, x i ≠ ⊥ ∧ x i ≠ ⊤) (hw : ∀ i, w i ≠ ⊥ ∧ w i ≠ ⊤) (n : Fin 65536) :
    scoresK x w (fun i => w i - w i) n = scoresR x w n := by
  funext k
  unfold scoresK scoresR
  exact scoreK_eq_dot (xrow x n) (wrow w k) (fun f => hx (ix2 n f)) (fun f => hw (ix2 k f))

/-- Every score of such a row is a real number. -/
private theorem scoresR_real (x : SX.Idx → EReal) (w : SW.Idx → EReal)
    (hx : ∀ i, x i ≠ ⊥ ∧ x i ≠ ⊤) (hw : ∀ i, w i ≠ ⊥ ∧ w i ≠ ⊤) (n : Fin 65536) (k : Fin 2000) :
    scoresR x w n k ≠ ⊥ ∧ scoresR x w n k ≠ ⊤ :=
  dot_real (xrow x n) (wrow w k) (fun f => hx (ix2 n f)) (fun f => hw (ix2 k f))

/-- The addressing weights agree. -/
theorem attArrK_eq_attArrR (x : SX.Idx → EReal) (w : SW.Idx → EReal)
    (hx : ∀ i, x i ≠ ⊥ ∧ x i ≠ ⊤) (hw : ∀ i, w i ≠ ⊥ ∧ w i ≠ ⊤) :
    attArrK x w (fun i => w i - w i) = attArrR x w := by
  funext i
  obtain ⟨n, k, rfl⟩ : ∃ (n : Fin 65536) (k : Fin 2000), i = ix2 n k := ⟨i 0, i 1, eq_ix2 i⟩
  show attK (scoresK x w (fun i => w i - w i) n) k = attR (scoresR x w n) k
  rw [scoresK_eq_scoresR x w hx hw n]
  exact attK_eq_attR (scoresR x w n) (fun k' => scoresR_real x w hx hw n k') k

/-- The read-outs agree. -/
theorem outArrK_eq_outArrR (x : SX.Idx → EReal) (w : SW.Idx → EReal)
    (hx : ∀ i, x i ≠ ⊥ ∧ x i ≠ ⊤) (hw : ∀ i, w i ≠ ⊥ ∧ w i ≠ ⊤) :
    outArrK x w (fun i => w i - w i) = outArrR x w := by
  funext i
  unfold outArrK outArrR
  rw [attArrK_eq_attArrR x w hx hw]

end Cert.Spec

end
-- ==== Proof.Finite.lean ====
/-
  Every entry of both inputs is a real number.

  The precondition is the conjunction of two tests, one per input: that the absolute value of every entry is
  below plus infinity. An extended real whose absolute value `max x (-x)` is below `⊤` is neither `⊤` nor `⊥`.
-/
import proofs.«414790_j3693671874649_3_alg».proof.Pre_finite_inputs
import proofs.«414790_j3693671874649_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic

/-- The f32 pattern with all-ones exponent, zero significand and sign bit clear denotes plus infinity. -/
private theorem ofBits_posInf : Ideal.ofBits .f32 0x7F800000#32 = ⊤ := by
  simp [Ideal.ofBits, Ideal.ieee]

/-- An extended real whose absolute value, the larger of it and its negation, tests below plus infinity is neither
    minus infinity nor plus infinity. -/
private theorem real_of_abs_lt (a : Ideal .f32)
    (h : FloatOps.cmpf .olt (FloatOps.hostAbsf a) (FloatOps.ofBits (F := Ideal) .f32 0x7F800000#32) = 1#1) :
    a ≠ ⊥ ∧ a ≠ ⊤ := by
  rw [Ideal.hostAbsf_def, Ideal.absf_def, Ideal.ofBits_def, ofBits_posInf, Ideal.cmpf_def] at h
  induction a using EReal.rec with
  | bot => simp [Ideal.cmp] at h
  | top => simp [Ideal.cmp] at h
  | coe r => exact ⟨EReal.coe_ne_bot r, EReal.coe_ne_top r⟩

/-- The rank-0 shape has exactly one index. -/
private instance : Subsingleton Cert.Pre_finite_inputs.S_.Idx := ⟨fun a b => funext fun d => d.elim0⟩

/-- When the printed precondition is all ones, every entry of the first input and of the second is a real number. -/
theorem real_of_pre [Cert.Pre_finite_inputs.Facts]
    (x : FVec Ideal Cert.Pre_finite_inputs.S65536x512 .f32) (w : FVec Ideal Cert.Pre_finite_inputs.S2000x512 .f32)
    (h : Cert.Pre_finite_inputs.fn (F := Ideal) x w = fun _ => 1#1) :
    (∀ i, x i ≠ ⊥ ∧ x i ≠ ⊤) ∧ (∀ i, w i ≠ ⊥ ∧ w i ≠ ⊤) := by
  have h0 := congrFun h ValueIdx.ix0
  dsimp only [Cert.Pre_finite_inputs.fn] at h0
  obtain ⟨hx, hw⟩ := IntOp.andi_eq_one.1 h0
  refine ⟨fun i => ?_, fun i => ?_⟩
  · have e := Host.reduce_andi_all _ _ _ _ _ hx i
    exact real_of_abs_lt (x i) e
  · have e := Host.reduce_andi_all _ _ _ _ _ hw i
    exact real_of_abs_lt (w i) e

end Cert.FiniteInputs

end
-- ==== Proof.lean ====
/-
  The memory unit: a linear addressing of 2000 memory slots by 65536 queries, softmax, hard shrink, L1
  normalisation, and a linear read-out — the kernel against its reference, over the extended reals.

  Both programs compute, for every query, a row of scores (the query contracted with every slot), turn it into a row
  of addressing weights, and contract the weights with the memory. They differ in three spellings, none of which changes
  an extended real once the inputs are real numbers:

  * The kernel splits each operand of the first contraction into a rounded part and a residue and contracts three of the
    four pairs. Over the extended reals a change of float format is the identity, so the rounded part is the operand
    and the residue is the operand minus itself: zero, for a real number.
  * The kernel multiplies by the reciprocal of the softmax's row sum where the reference divides by it. The row sum of
    exponentials of real scores shifted by their maximum is a positive real, and for a divisor that is not zero the
    quotient is the product with the inverse.
  * The kernel sums the shrunk weights where the reference sums their absolute values. A shrunk weight is a
    nonnegative numerator over a positive denominator.

  The kernel's result arrays are read off its generated frame run block by block (one grid point per 256 rows), the
  reference's off its generated run stage by stage; both are rewritten to one specification, and the precondition
  (every input entry finite) supplies the real numbers.

  The one rewrite of the ideal pass, a narrowing to bf16 widened back, is the identity over the extended reals and the
  rounding through bf16 at the word level: the rule's own statement.
-/
import proofs.«414790_j3693671874649_3_alg».proof.Defs
import proofs.«414790_j3693671874649_3_alg».proof.Proof.Gen.Kernel
import proofs.«414790_j3693671874649_3_alg».proof.Proof.Gen.Kernel.Skeleton
import proofs.«414790_j3693671874649_3_alg».proof.Proof.Gen.Kernel.Launch
import proofs.«414790_j3693671874649_3_alg».proof.Proof.Gen.Kernel.Points
import proofs.«414790_j3693671874649_3_alg».proof.Proof.Gen.Kernel.Frame
import proofs.«414790_j3693671874649_3_alg».proof.Proof.Gen.KernelIdeal
import proofs.«414790_j3693671874649_3_alg».proof.Proof.Gen.KernelIdeal.Skeleton
import proofs.«414790_j3693671874649_3_alg».proof.Proof.Gen.KernelIdeal.Launch
import proofs.«414790_j3693671874649_3_alg».proof.Proof.Gen.KernelIdeal.Points
import proofs.«414790_j3693671874649_3_alg».proof.Proof.Gen.KernelIdeal.Frame
import proofs.«414790_j3693671874649_3_alg».proof.Proof.Gen.ReferenceIdeal
import proofs.«414790_j3693671874649_3_alg».proof.Proof.Gen.Pre_finite_inputs
import proofs.«414790_j3693671874649_3_alg».proof.Proof.Gen.KernelIdeal.Value
import proofs.«414790_j3693671874649_3_alg».proof.Proof.Gen.ReferenceIdeal.Run
import proofs.«414790_j3693671874649_3_alg».proof.Proof.Gen.ReferenceIdeal.Read
import proofs.«414790_j3693671874649_3_alg».proof.Proof.KernelValue
import proofs.«414790_j3693671874649_3_alg».proof.Proof.RefSide
import proofs.«414790_j3693671874649_3_alg».proof.Proof.Bridge
import proofs.«414790_j3693671874649_3_alg».proof.Proof.Finite
import Idealize.ShloMosaic.Adequacy
import Idealize.ShloMosaic.Init

noncomputable section

namespace Cert.Proof

open Idealize.ShloMosaic Idealize.SL.Sem

/-- The word-level kernel runs and leaves its arguments: its generated frame. -/
theorem frame_kernel : Cert.frame_Kernel := fun m ρ _ => Cert.Kernel.Gen.frame m ρ

/-- The idealized kernel runs and leaves its arguments: its generated frame. -/
theorem frame_kernelIdeal : Cert.frame_KernelIdeal := fun m ρ _ => Cert.KernelIdeal.Gen.frame m ρ

/-- The reference runs and leaves its arguments: its generated run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass's one rewrite: narrowing a query block to bf16 and widening it back is the identity over the
    extended reals, and the rounding through bf16 on words. -/
theorem preserves : Cert.preserves_Kernel_KernelIdeal :=
  IdealRules.truncf_extf.statement Cert.KernelIdeal.S256x512 .f32 .bf16

/-- From memories agreeing on the two inputs, both idealized programs end with the read-out and the addressing
    weights of the specification, second spelling, of those inputs. -/
theorem algebraic : Cert.algebraic_KernelIdeal_ReferenceIdeal := by
  intro m ρ m' ρ' hpre hagree
  have hfin : ∀ c : Dev Cert.KernelIdeal.nD,
      (∀ i, Cert.KernelBlocks.xarr m c i ≠ ⊥ ∧ Cert.KernelBlocks.xarr m c i ≠ ⊤)
      ∧ (∀ i, Cert.KernelBlocks.warr m c i ≠ ⊥ ∧ Cert.KernelBlocks.warr m c i ≠ ⊤) :=
    fun c => Cert.FiniteInputs.real_of_pre _ _ (hpre c)
  refine ⟨fun c => Cert.Spec.outArrR (Cert.KernelBlocks.xarr m c) (Cert.KernelBlocks.warr m c),
    fun c => Cert.Spec.attArrR (Cert.KernelBlocks.xarr m c) (Cert.KernelBlocks.warr m c), ?_, ?_⟩
  · refine (θ_run Cert.KernelIdeal.defs _ _).mono
      (fun r h c => ⟨(h c).1.trans ?_, (h c).2.1.trans ?_, (h c).2.2.1, (h c).2.2.2⟩) (Cert.KernelSide.run m ρ)
    · exact Cert.Spec.outArrK_eq_outArrR _ _ (hfin c).1 (hfin c).2
    · exact Cert.Spec.attArrK_eq_attArrR _ _ (hfin c).1 (hfin c).2
  · refine (θ_run Cert.ReferenceIdeal.defs _ _).mono
      (fun r h c => ⟨(h c).1.trans ?_, (h c).2.1.trans ?_, (h c).2.2.1, (h c).2.2.2⟩)
      (Cert.ReferenceIdeal.Value.run (F := Ideal) m' ρ')
    · refine (Cert.ReferenceIdeal.Read.val_main_v29_eq m' c).trans ((Cert.RefSide.ref_out _ _).trans ?_)
      rw [(hagree c).1, (hagree c).2]
    · refine (Cert.ReferenceIdeal.Read.val_main_v28_eq m' c).trans ((Cert.RefSide.ref_att _ _).trans ?_)
      rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
